-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x3 : Shape := ⟨3, ![16, 4096, 3]⟩
abbrev S_ : Shape := ⟨0, ![]⟩

class Facts : Prop where
  bcast_S_S16x4096x3 : S_.BroadcastsInDim S16x4096x3 (![] : Fin 0 → Fin S16x4096x3.rank)
  reducesTo_S16x4096x3_S_d0_1_2 : S16x4096x3.ReducesTo [0, 1, 2] S_
  h_S_ : 0 < S_.numel

variable [Facts]

def fn {F : FTy → Type} [FloatOps F] (main_arg0 : FVec F S16x4096x3 .f32) (main_arg1 : FVec F S16x4096x3 .f32) : IVec S_ 1 :=
  let main_v0 : FVec F S16x4096x3 .f32 := Host.absf main_arg0
  let main_cst : FVec F S_ .f32 := constant S_ .f32 0x7F800000#32
  let main_v1 : FVec F S16x4096x3 .f32 := broadcastInDim S16x4096x3 ![] bcast_S_S16x4096x3 main_cst
  let main_v2 : IVec S16x4096x3 1 := cmpf .olt main_v0 main_v1
  let main_c : IVec S_ 1 := constantI S_ 1 1#1
  let main_v3 : IVec S_ 1 := (fun x v => Host.reduce IntOp.andi x v reducesTo_S16x4096x3_S_d0_1_2 h_S_) main_v2 main_c
  let main_v4 : FVec F S16x4096x3 .f32 := Host.absf main_arg1
  let main_cst_0 : FVec F S_ .f32 := constant S_ .f32 0x7F800000#32
  let main_v5 : FVec F S16x4096x3 .f32 := broadcastInDim S16x4096x3 ![] bcast_S_S16x4096x3 main_cst_0
  let main_v6 : IVec S16x4096x3 1 := cmpf .olt main_v4 main_v5
  let main_c_1 : IVec S_ 1 := constantI S_ 1 1#1
  let main_v7 : IVec S_ 1 := (fun x v => Host.reduce IntOp.andi x v reducesTo_S16x4096x3_S_d0_1_2 h_S_) main_v6 main_c_1
  let main_v8 : IVec S_ 1 := andi main_v3 main_v7
  main_v8
-- ==== Kernel.lean ====
abbrev S16x4096x3 : Shape := ⟨3, ![16, 4096, 3]⟩
abbrev S_ : Shape := ⟨0, ![]⟩
abbrev S16x4096 : Shape := ⟨2, ![16, 4096]⟩
abbrev S16x512x3 : Shape := ⟨3, ![16, 512, 3]⟩
abbrev S16x512 : Shape := ⟨2, ![16, 512]⟩
abbrev S16x512x512 : Shape := ⟨3, ![16, 512, 512]⟩
abbrev S16x512x1 : Shape := ⟨3, ![16, 512, 1]⟩
abbrev S16x1x512 : Shape := ⟨3, ![16, 1, 512]⟩
abbrev S16 : Shape := ⟨1, ![16]⟩

abbrev nBuf : Space → Nat
  | .hbm => 18
  | .vmem => 11
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x4096x3, .bf16⟩
  | .hbm, ⟨3, _⟩ => ⟨S16x4096x3, .bf16⟩
  | .hbm, ⟨4, _⟩ => ⟨S16x4096x3, .f32⟩
  | .hbm, ⟨5, _⟩ => ⟨S_, .f32⟩
  | .hbm, ⟨6, _⟩ => ⟨S16x4096, .f32⟩
  | .hbm, ⟨7, _⟩ => ⟨S16x4096x3, .f32⟩
  | .hbm, ⟨8, _⟩ => ⟨S_, .f32⟩
  | .hbm, ⟨9, _⟩ => ⟨S16x4096, .f32⟩
  | .hbm, ⟨10, _⟩ => ⟨S16x4096, .f32⟩
  | .hbm, ⟨11, _⟩ => ⟨S_, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S_, .f32⟩
  | .local _ .vmem, ⟨0, _⟩ => ⟨S16x512x3, .bf16⟩
  | .local _ .vmem, ⟨1, _⟩ => ⟨S16x512x3, .bf16⟩
  | .local _ .vmem, ⟨2, _⟩ => ⟨S16x512x3, .bf16⟩
  | .local _ .vmem, ⟨3, _⟩ => ⟨S16x512x3, .bf16⟩
  | .local _ .vmem, ⟨4, _⟩ => ⟨S16x512, .f32⟩
  | .local _ .vmem, ⟨5, _⟩ => ⟨S16x512, .f32⟩
  | .local _ .vmem, ⟨6, _⟩ => ⟨S16x512, .f32⟩
  | .local _ .vmem, ⟨7, _⟩ => ⟨S16x512, .f32⟩
  | .local _ .vmem, ⟨8, _⟩ => ⟨S16x512, .f32⟩
  | .local _ .vmem, ⟨9, _⟩ => ⟨S16x512, .f32⟩
  | .local _ .vmem, ⟨10, _⟩ => ⟨S16x512, .f32⟩
  | _, _ => ⟨S16x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v26 : BitVec 1 := Scalar.cmpi .eq arg1 c7_i32
  let v27 : BitVec 32 := Scalar.extui v26
  let c0_i32_16 : BitVec 32 := 0#32
  let v28 : BitVec 1 := Scalar.cmpi .ne v27 c0_i32_16
  v28

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S16x512x3 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x512x3 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  reducesTo_S16x4096x3_S16x4096_d2 : S16x4096x3.ReducesTo [2] S16x4096
  h_S_ : 0 < S_.numel
  inb_S16x512_S16x512_0_0 : ∀ a, (![0, 0] : Fin 2 → Nat) a + S16x512.size a ≤ S16x512.size a
  h_S16x512 : 0 < S16x512.numel
  shapeCasts_S16x512_S16x512 : S16x512.ShapeCasts S16x512
  inb_S16x512x3_S16x512x3_0_0_0 : ∀ a, (![0, 0, 0] : Fin 3 → Nat) a + S16x512x3.size a ≤ S16x512x3.size a
  h_S16x512x3 : 0 < S16x512x3.numel
  shapeCasts_S16x512x3_S16x512x3 : S16x512x3.ShapeCasts S16x512x3
  shapeCasts_S16x512_S16x512x1 : S16x512.ShapeCasts S16x512x1
  shapeCasts_S16x512_S16x1x512 : S16x512.ShapeCasts S16x1x512
  broadcasts_S16x512x1_S16x512x512 : S16x512x1.Broadcasts S16x512x512
  broadcasts_S16x1x512_S16x512x512 : S16x1x512.Broadcasts S16x512x512
  reduces_S16x512x512_S16x512 : S16x512x512.Reduces [2] S16x512
  reducesTo_S16x4096_S16_d1 : S16x4096.ReducesTo [1] S16
  bcast_S_S16 : S_.BroadcastsInDim S16 (![] : Fin 0 → Fin S16.rank)
  reducesTo_S16_S_d0 : S16.ReducesTo [0] S_
  dot_S16x512x3_S16x512x3_S16x512x512_2_2_1_1_0_0_wf : DotDims.WF S16x512x3 S16x512x3 S16x512x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x512x3.size a ≤ S16x4096x3.size a
  hwx0_0 : ∀ i : grid0.Coords, EltTy.bits .bf16 = 32 ∨ (Rect.block (s := S16x4096x3) S16x512x3.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x512x3.size a ≤ S16x4096x3.size a
  hwx0_1 : ∀ i : grid0.Coords, EltTy.bits .bf16 = 32 ∨ (Rect.block (s := S16x4096x3) S16x512x3.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x512.size a ≤ S16x4096.size a
  hwx0_2 : ∀ i : grid0.Coords, EltTy.bits .f32 = 32 ∨ (Rect.block (s := S16x4096) S16x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x512.size a ≤ S16x4096.size a
  hwx0_3 : ∀ i : grid0.Coords, EltTy.bits .f32 = 32 ∨ (Rect.block (s := S16x4096) S16x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x512.size a ≤ S16x4096.size a
  hwx0_4 : ∀ i : grid0.Coords, EltTy.bits .f32 = 32 ∨ (Rect.block (s := S16x4096) S16x512.size (cc0_transform_4 i) (hinb0_4 i)).WholeWords (EltTy.packing .f32)

variable [Facts₀]

def dot_S16x512x3_S16x512x3_S16x512x512_2_2_1_1_0_0 : DotDims S16x512x3 S16x512x3 S16x512x512 where
  lhsContracting := [2]
  rhsContracting := [2]
  lhsNonContracting := [1]
  rhsNonContracting := [1]
  lhsBatch := [0]
  rhsBatch := [0]
  wf := dot_S16x512x3_S16x512x3_S16x512x512_2_2_1_1_0_0_wf

abbrev win0_0 : Pipeline.Window sig grid0 :=
  Pipeline.Window.ofSpec (Memref.whole main_v0) S16x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S16x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S16x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S16x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16x4096x3 : Shape := ⟨3, ![16, 4096, 3]⟩
abbrev S_ : Shape := ⟨0, ![]⟩
abbrev S16x4096 : Shape := ⟨2, ![16, 4096]⟩
abbrev S16x4096x4096 : Shape := ⟨3, ![16, 4096, 4096]⟩
abbrev S16x4096x1 : Shape := ⟨3, ![16, 4096, 1]⟩
abbrev S16x1x4096 : Shape := ⟨3, ![16, 1, 4096]⟩
abbrev S16 : Shape := ⟨1, ![16]⟩

abbrev nBuf : Space → Nat
  | .hbm => 27
  | .vmem => 0
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x4096x3, .f32⟩
  | .hbm, ⟨3, _⟩ => ⟨S_, .f32⟩
  | .hbm, ⟨4, _⟩ => ⟨S16x4096, .f32⟩
  | .hbm, ⟨5, _⟩ => ⟨S16x4096x3, .f32⟩
  | .hbm, ⟨6, _⟩ => ⟨S_, .f32⟩
  | .hbm, ⟨7, _⟩ => ⟨S16x4096, .f32⟩
  | .hbm, ⟨8, _⟩ => ⟨S16x4096x4096, .f32⟩
  | .hbm, ⟨9, _⟩ => ⟨S16x4096x1, .f32⟩
  | .hbm, ⟨10, _⟩ => ⟨S16x1x4096, .f32⟩
  | .hbm, ⟨11, _⟩ => ⟨S16x4096x4096, .f32⟩
  | .hbm, ⟨12, _⟩ => ⟨S16x4096x4096, .f32⟩
  | .hbm, ⟨13, _⟩ => ⟨S16x4096x4096, .f32⟩
  | .hbm, ⟨14, _⟩ => ⟨S_, .f32⟩
  | .hbm, ⟨15, _⟩ => ⟨S16x4096x4096, .f32⟩
  | .hbm, ⟨16, _⟩ => ⟨S16x4096x4096, .f32⟩
  | .hbm, ⟨17, _⟩ => ⟨S16x4096x4096, .f32⟩
  | .hbm, ⟨18, _⟩ => ⟨S_, .f32⟩
  | .hbm, ⟨19, _⟩ => ⟨S16x4096, .f32⟩
  | .hbm, ⟨20, _⟩ => ⟨S_, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S_, .f32⟩
  | .hbm, ⟨26, _⟩ => ⟨S_, .f32⟩
  | _, _ => ⟨S16x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  reducesTo_S16x4096x3_S16x4096_d2 : S16x4096x3.ReducesTo [2] S16x4096
  h_S_ : 0 < S_.numel
  bcast_S16x4096_S16x4096x1_0_1 : S16x4096.BroadcastsInDim S16x4096x1 (![0, 1] : Fin 2 → Fin S16x4096x1.rank)
  bcast_S16x4096_S16x1x4096_0_2 : S16x4096.BroadcastsInDim S16x1x4096 (![0, 2] : Fin 2 → Fin S16x1x4096.rank)
  bcast_S16x4096x1_S16x4096x4096_0_1_2 : S16x4096x1.BroadcastsInDim S16x4096x4096 (![0, 1, 2] : Fin 3 → Fin S16x4096x4096.rank)
  bcast_S16x1x4096_S16x4096x4096_0_1_2 : S16x1x4096.BroadcastsInDim S16x4096x4096 (![0, 1, 2] : Fin 3 → Fin S16x4096x4096.rank)
  bcast_S_S16x4096x4096 : S_.BroadcastsInDim S16x4096x4096 (![] : Fin 0 → Fin S16x4096x4096.rank)
  reducesTo_S16x4096x4096_S16x4096_d2 : S16x4096x4096.ReducesTo [2] S16x4096
  reducesTo_S16x4096_S16_d1 : S16x4096.ReducesTo [1] S16
  bcast_S_S16 : S_.BroadcastsInDim S16 (![] : Fin 0 → Fin S16.rank)
  reducesTo_S16_S_d0 : S16.ReducesTo [0] S_
  dot_S16x4096x3_S16x4096x3_S16x4096x4096_2_2_1_1_0_0_wf : DotDims.WF S16x4096x3 S16x4096x3 S16x4096x4096 [2] [2] [1] [1] [0] [0]

variable [Facts₀]

def dot_S16x4096x3_S16x4096x3_S16x4096x4096_2_2_1_1_0_0 : DotDims S16x4096x3 S16x4096x3 S16x4096x4096 where
  lhsContracting := [2]
  rhsContracting := [2]
  lhsNonContracting := [1]
  rhsNonContracting := [1]
  lhsBatch := [0]
  rhsBatch := [0]
  wf := dot_S16x4096x3_S16x4096x3_S16x4096x4096_2_2_1_1_0_0_wf

class Facts : Prop extends Facts₀ where

variable [Facts]
-- ==== Proof.Spec.lean ====
/-
  The mathematics both programs share, with no program text in it.

  `X` and `Y` are 16 batches of 4096 points of ℝ³ (entries extended reals), `x2` and `y2` an array per batch
  and point (in the programs: the points' squared norms; nothing here uses that). The squared distance from
  point `n` of `X` to point `m` of `Y` in batch `b` is
      dist b n m = (x2 b n + y2 b m) - two · ∑ d, X b n d · Y b m d
  and `rowMin` is, per batch and point of `X`, its minimum over all 4096 points of `Y`, taken from a start
  value `top` (`two` and `top` stay parameters: both programs spell them by the same words, which are never
  evaluated). One program takes that minimum in one sweep; the other in eight tiles of 512 columns, joining each
  tile's minimum to a running one that starts at `top`. `runMin_last`: after the last tile the running minimum
  is the minimum of the sweep. Only that `min` is a meet is used: `z ≤ min a b ↔ z ≤ a ∧ z ≤ b`, so nothing
  need be finite. `meanSum` is what both programs then do with the row minima: the sum over a batch's points,
  divided by the word for 4096, summed over the batches.
-/
import Idealize.ShloMosaic.PureOps.Ideal.Laws
import Idealize.ShloMosaic.Lib.ValueIdx

noncomputable section

namespace Cert.Chamfer

open Idealize.ShloMosaic Idealize.ShloMosaic.ValueIdx

/-- Point clouds: batch, point, coordinate. -/
abbrev Pts : Shape := ⟨3, ![16, 4096, 3]⟩
/-- One number per batch and point. -/
abbrev Rows : Shape := ⟨2, ![16, 4096]⟩
/-- One number per batch. -/
abbrev Bat : Shape := ⟨1, ![16]⟩
/-- One number. -/
abbrev Sca : Shape := ⟨0, ![]⟩

/-- The squared distance from point `n` of `X` to point `m` of `Y` in batch `b`, by the polarization
    `|x|² + |y|² - 2 x·y`. -/
def dist (two : EReal) (X Y : Pts.Idx → EReal) (x2 y2 : Rows.Idx → EReal) (b : Fin 16) (n m : Fin 4096) : EReal :=
  (x2 (ix2 b n) + y2 (ix2 b m)) - two * ∑ d : Fin 3, X (ix3 b n d) * Y (ix3 b m d)

/-- Per batch and point of `X`: the least squared distance to a point of `Y`, the minimum started at `top`. -/
def rowMin (top two : EReal) (X Y : Pts.Idx → EReal) (x2 y2 : Rows.Idx → EReal) : Rows.Idx → EReal :=
  fun i => (Finset.univ : Finset (Fin 4096)).fold min top fun m => dist two X Y x2 y2 (i 0) (i 1) m

/-! ## A minimum over 4096 columns, taken in eight tiles of 512 -/

section Tiles

variable (top : EReal) (g : Fin 4096 → EReal)

/-- The minimum of `g` over the 512 columns of tile `j`, started at `top`. -/
def tileMin (j : ℕ) (hj : j < 8) : EReal :=
  (Finset.univ : Finset (Fin 512)).fold min top fun q => g ⟨512 * j + q.val, by have := q.isLt; omega⟩

/-- The running minimum after tiles `0 … j`: `top` joined with tile 0's minimum, then each next tile's joined on. -/
def runMin : (j : ℕ) → j < 8 → EReal
  | 0, h => min top (tileMin top g 0 h)
  | j + 1, h => min (runMin j (Nat.lt_of_succ_lt h)) (tileMin top g (j + 1) h)

/-- Below a tile's minimum is below `top` and below every entry of the tile. -/
theorem le_tileMin_iff (j : ℕ) (hj : j < 8) (z : EReal) :
    z ≤ tileMin top g j hj ↔ z ≤ top ∧ ∀ q : Fin 512, z ≤ g ⟨512 * j + q.val, by have := q.isLt; omega⟩ := by
  unfold tileMin
  rw [Finset.le_fold_min]
  exact and_congr_right fun _ => ⟨fun h q => h q (Finset.mem_univ _), fun h q _ => h q⟩

/-- Below the running minimum after tile `j` is below `top` and below every entry of the first `512 (j + 1)`
    columns. -/
theorem le_runMin_iff : ∀ (j : ℕ) (hj : j < 8) (z : EReal),
    z ≤ runMin top g j hj ↔ z ≤ top ∧ ∀ m : Fin 4096, m.val < 512 * (j + 1) → z ≤ g m
  | 0, hj, z => by
    rw [runMin, le_min_iff, le_tileMin_iff]
    constructor
    · rintro ⟨h, -, hq⟩
      refine ⟨h, fun m hm => ?_⟩
      have e : (⟨512 * 0 + (⟨m.val, by omega⟩ : Fin 512).val, by have := m.isLt; omega⟩ : Fin 4096) = m :=
        Fin.ext (by show 512 * 0 + m.val = m.val; omega)
      exact e ▸ hq ⟨m.val, by omega⟩
    · rintro ⟨h, hm⟩
      exact ⟨h, h, fun q => hm _ (by have := q.isLt; show 512 * 0 + q.val < 512 * (0 + 1); omega)⟩
  | j + 1, hj, z => by
    rw [runMin, le_min_iff, le_runMin_iff j, le_tileMin_iff]
    constructor
    · rintro ⟨⟨h, hlo⟩, -, hq⟩
      refine ⟨h, fun m hm => ?_⟩
      by_cases hlt : m.val < 512 * (j + 1)
      · exact hlo m hlt
      · have e : (⟨512 * (j + 1) + (⟨m.val - 512 * (j + 1), by omega⟩ : Fin 512).val, by have := m.isLt; omega⟩ : Fin 4096) = m :=
          Fin.ext (by show 512 * (j + 1) + (m.val - 512 * (j + 1)) = m.val; omega)
        exact e ▸ hq ⟨m.val - 512 * (j + 1), by omega⟩
    · rintro ⟨h, hm⟩
      exact ⟨⟨h, fun m hlt => hm m (by omega)⟩, h,
        fun q => hm _ (by have := q.isLt; show 512 * (j + 1) + q.val < 512 * (j + 1 + 1); omega)⟩

/-- After the eighth tile the running minimum is the minimum over all 4096 columns. -/
theorem runMin_last : runMin top g 7 (by omega) = (Finset.univ : Finset (Fin 4096)).fold min top g :=
  eq_of_forall_le_iff fun z => by
    rw [le_runMin_iff, Finset.le_fold_min]
    exact and_congr_right fun _ =>
      ⟨fun h m _ => h m (by have := m.isLt; omega), fun h m _ => h m (Finset.mem_univ _)⟩

end Tiles

/-! ## What both programs do with the row minima -/

/-- The sum over each batch's points, divided by the word for 4096, then summed over the batches (the shape
    facts are the programs' own, passed in). -/
def meanSum (h1 : Rows.ReducesTo [1] Bat) (hb : Sca.BroadcastsInDim Bat (![] : Fin 0 → Fin Bat.rank))
    (h0 : Bat.ReducesTo [0] Sca) (hS : 0 < Sca.numel) (v : FVec Ideal Rows .f32) : FVec Ideal Sca .f32 :=
  Host.reduceAdd (F := Ideal)
    (Host.divf (F := Ideal) (Host.reduceAdd (F := Ideal) v (constant (F := Ideal) Sca .f32 0x00000000#32) h1 hS)
      (broadcastInDim Bat ![] hb (constant (F := Ideal) Sca .f32 0x45800000#32)))
    (constant (F := Ideal) Sca .f32 0x00000000#32) h0 hS

end Cert.Chamfer

end
-- ==== Proof.RefValue.lean ====
/-
  The reference's row minima are the specification's.

  The reference forms, over whole arrays, the points' squared norms, all 4096 × 4096 inner products per batch,
  the squared distances `(|x|² + |y|²) - two · (x · y)`, and reduces the last axis by `min` from the start word:
  at (b, n) that is the fold of `min` over the column `m` of `dist b n m`. What it does next is `meanSum`.
-/
import proofs.«125619_j60344290509660_1_alg».proof.Proof.Gen.ReferenceIdeal.Read
import proofs.«125619_j60344290509660_1_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- Two folds of `min` over the 4096 columns agree when their start values and their entries do. -/
private theorem fold_min_congr {f g : Fin 4096 → EReal} {s t : EReal} (hst : s = t) (h : ∀ m, f m = g m) :
    (Finset.univ : Finset (Fin 4096)).fold min s f = (Finset.univ : Finset (Fin 4096)).fold min t g := by
  subst hst
  exact Finset.fold_congr fun m _ => h m

/-- The reference's minimum-reduced array is `rowMin` of the arguments and their squared norms (the two host sums,
    left as the reference computes them). -/
theorem rowMin_ref (X Y : (⟨S16x4096x3, .f32⟩ : BufTy).Contents (Elt Ideal)) :
    val_main_v13 (F := Ideal) X Y
      = Cert.Chamfer.rowMin (Ideal.ofBits .f32 0x7F800000#32) (Ideal.ofBits .f32 0x40000000#32) X Y
          (val_main_v1 (F := Ideal) X) (val_main_v3 (F := Ideal) Y) := by
  -- Entry by entry; an index of the result is a batch `b` and a point `n` of `X`.
  funext i
  obtain ⟨b, n, rfl⟩ : ∃ (b : Fin 16) (n : Fin 4096), i = ix2 b n := ⟨i 0, i 1, eq_ix2 i⟩
  -- `min` commutes and associates, so the reduction of the last axis is, at (b, n), the fold of `min` over that
  -- axis's 4096 coordinates, started at the start word's value; the specification's `rowMin` is such a fold too.
  have hR : S16x4096x4096.Reduces [2] S16x4096 := by decide
  unfold val_main_v13
  refine (Host.reduce_eq_fold_single FloatOps.minimumf _ _ reducesTo_S16x4096x4096_S16x4096_d2 hR h_S_ _).trans ?_
  unfold Cert.Chamfer.rowMin
  -- The start values are the same word; what is left is the folded entry at each column `m`.
  refine fold_min_congr (val_main_cst_2_apply _) fun m => ?_
  -- The index over (b, n) with `m` put on the reduced axis is (b, n, m).
  have hj : hR.lift (ix2 b n) m = ix3 b n m :=
    funext fun a => Fin.ext (by match a with | ⟨0, _⟩ => rfl | ⟨1, _⟩ => rfl | ⟨2, _⟩ => rfl)
  -- The squared norms are spread along the other cloud's point axis: at (b, n, m) the first is read at (b, n),
  -- the second at (b, m).
  have e5 : idx_main_v5 (idx_main_v7 (ix3 b n m)) = ix2 b n :=
    funext fun a => Fin.ext (by match a with | ⟨0, _⟩ => rfl | ⟨1, _⟩ => rfl)
  have e6 : idx_main_v6 (idx_main_v8 (ix3 b n m)) = ix2 b m :=
    funext fun a => Fin.ext (by match a with | ⟨0, _⟩ => rfl | ⟨1, _⟩ => rfl)
  -- The inner product at (b, n, m) pairs coordinate `d` of point `n` of `X` with coordinate `d` of point `m` of `Y`.
  have el : ∀ d : Fin 3, lidx_main_v4 (ix3 b n m) d = ix3 b n d := fun d =>
    funext fun a => Fin.ext (by match a with | ⟨0, _⟩ => rfl | ⟨1, _⟩ => rfl | ⟨2, _⟩ => rfl)
  have er : ∀ d : Fin 3, ridx_main_v4 (ix3 b n m) d = ix3 b m d := fun d =>
    funext fun a => Fin.ext (by match a with | ⟨0, _⟩ => rfl | ⟨1, _⟩ => rfl | ⟨2, _⟩ => rfl)
  -- Read the difference at (b, n, m) through its operands down to the arguments and the two arrays of norms.
  show val_main_v12 (F := Ideal) X Y (hR.lift (ix2 b n) m) = _
  rw [hj, val_main_v12_apply, val_main_v9_apply, val_main_v11_apply, val_main_v7_apply, val_main_v5_apply,
    val_main_v8_apply, val_main_v6_apply, val_main_v10_apply, val_main_cst_1_apply, val_main_v4_apply, e5, e6]
  simp only [el, er]
  -- The operations are the extended reals' own: this is `dist b n m` unfolded, `(|x|² + |y|²) - two · (x · y)`.
  rfl

/-- The reference's result is `meanSum` of its row minima. -/
theorem result_ref (X Y : (⟨S16x4096x3, .f32⟩ : BufTy).Contents (Elt Ideal)) :
    val_main_v17 (F := Ideal) X Y
      = Cert.Chamfer.meanSum reducesTo_S16x4096_S16_d1 bcast_S_S16 reducesTo_S16_S_d0 h_S_ (val_main_v13 (F := Ideal) X Y) := by
  -- The remaining stages, written out, are `meanSum`'s own text: the sum over a batch's points from the zero word,
  -- the division by the word for 4096 spread over the batches, the sum over the batches from the zero word.
  unfold val_main_v17 val_main_v16 val_main_v15 val_main_v14 val_main_cst_5 val_main_cst_4 val_main_cst_3
    Cert.Chamfer.meanSum
  rfl

end Cert.ReferenceIdeal.RefValue

end
-- ==== Proof.Pieces.lean ====
import proofs.«125619_j60344290509660_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic
open Idealize.ShloMosaic.Pipeline (Dat)

/-! What each control case of the kernel body leaves behind, as the body's payloads.

The body keeps a running-minimum block in a buffer that lives across grid points. At a point whose column
tile is the first it stores the start block and then the update of that block; at any other point the update
of what the point before left; and at a point whose column tile is the last it also copies the updated
buffer into the output block. Each statement below reads the stores a case makes back as one value. -/

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A later column tile, not the last: the buffer ends at the update of what it held. -/
theorem sout_B (c : Dev nD) (i : grid0.Coords) (arg2 : Memref sig .tc .vmem S16x512x3 .bf16) (harg2 : arg2.IsWhole) (arg3 : Memref sig .tc .vmem S16x512x3 .bf16) (harg3 : arg3.IsWhole) (arg4 : Memref sig .tc .vmem S16x512 .f32) (harg4 : arg4.IsWhole) (arg5 : Memref sig .tc .vmem S16x512 .f32) (harg5 : arg5.IsWhole) (arg6 : Memref sig .tc .vmem S16x512 .f32) (harg6 : arg6.IsWhole) (arg7 : Memref sig .tc .vmem S16x512 .f32) (harg7 : arg7.IsWhole) (hc0 : ¬cond0_0 i) (hc1 : ¬cond0_1 i)
    (x0 : Vec F S16x512x3 .bf16) (x1 : Vec F S16x512x3 .bf16) (x2 : Vec F S16x512 .f32) (x3 : Vec F S16x512 .f32) (xs0 : Vec F S16x512 .f32) :
    sout0_B_0 c i arg2 harg2 arg3 harg3 arg4 harg4 arg5 harg5 arg6 harg6 arg7 harg7 hc0 hc1 x0 x1 x2 x3 xs0 = k0_pay2 x0 x1 x2 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz2]
  simp only [View.readAt_eq_ld, harg2.read_unread, harg3.read_unread, harg4.read_unread, harg5.read_unread, harg6.read_unread, harg7.read_unread, View.ld_unit_zero (S := S16x512) hz2, View.ld_unit_zero (S := S16x512x3) hz3]

/-- The first column tile: the buffer is reset to the start block, and ends at the update of that. -/
theorem sout_A (c : Dev nD) (i : grid0.Coords) (arg2 : Memref sig .tc .vmem S16x512x3 .bf16) (harg2 : arg2.IsWhole) (arg3 : Memref sig .tc .vmem S16x512x3 .bf16) (harg3 : arg3.IsWhole) (arg4 : Memref sig .tc .vmem S16x512 .f32) (harg4 : arg4.IsWhole) (arg5 : Memref sig .tc .vmem S16x512 .f32) (harg5 : arg5.IsWhole) (arg6 : Memref sig .tc .vmem S16x512 .f32) (harg6 : arg6.IsWhole) (arg7 : Memref sig .tc .vmem S16x512 .f32) (harg7 : arg7.IsWhole) (hc0 : cond0_0 i) (hc1 : ¬cond0_1 i)
    (x0 : Vec F S16x512x3 .bf16) (x1 : Vec F S16x512x3 .bf16) (x2 : Vec F S16x512 .f32) (x3 : Vec F S16x512 .f32) :
    sout0_A_0 c i arg2 harg2 arg3 harg3 arg4 harg4 arg5 harg5 arg6 harg6 arg7 harg7 hc0 hc1 x0 x1 x2 x3 = k0_pay2 x0 x1 x2 x3 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S16x512) hz2]
  simp only [View.readCov_unit_zero (S := S16x512) _ hz2, View.readAt_eq_ld, harg2.read_unread, harg3.read_unread, harg4.read_unread, harg5.read_unread, View.ld_unit_zero (S := S16x512) hz2, View.ld_unit_zero (S := S16x512x3) hz3]

/-- The last column tile: the buffer ends at the update of what it held, -/
theorem sout_C (c : Dev nD) (i : grid0.Coords) (arg2 : Memref sig .tc .vmem S16x512x3 .bf16) (harg2 : arg2.IsWhole) (arg3 : Memref sig .tc .vmem S16x512x3 .bf16) (harg3 : arg3.IsWhole) (arg4 : Memref sig .tc .vmem S16x512 .f32) (harg4 : arg4.IsWhole) (arg5 : Memref sig .tc .vmem S16x512 .f32) (harg5 : arg5.IsWhole) (arg6 : Memref sig .tc .vmem S16x512 .f32) (harg6 : arg6.IsWhole) (arg7 : Memref sig .tc .vmem S16x512 .f32) (harg7 : arg7.IsWhole) (hc0 : ¬cond0_0 i) (hc1 : cond0_1 i)
    (x0 : Vec F S16x512x3 .bf16) (x1 : Vec F S16x512x3 .bf16) (x2 : Vec F S16x512 .f32) (x3 : Vec F S16x512 .f32) (xs0 : Vec F S16x512 .f32) :
    sout0_C_0 c i arg2 harg2 arg3 harg3 arg4 harg4 arg5 harg5 arg6 harg6 arg7 harg7 hc0 hc1 x0 x1 x2 x3 xs0 = k0_pay2 x0 x1 x2 x3 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz2]
  simp only [View.readAt_eq_ld, harg2.read_unread, harg3.read_unread, harg4.read_unread, harg5.read_unread, harg6.read_unread, harg7.read_unread, View.ld_unit_zero (S := S16x512) hz2, View.ld_unit_zero (S := S16x512x3) hz3]

/-- and the output block is a copy of it. -/
theorem out_C (c : Dev nD) (i : grid0.Coords) (arg2 : Memref sig .tc .vmem S16x512x3 .bf16) (harg2 : arg2.IsWhole) (arg3 : Memref sig .tc .vmem S16x512x3 .bf16) (harg3 : arg3.IsWhole) (arg4 : Memref sig .tc .vmem S16x512 .f32) (harg4 : arg4.IsWhole) (arg5 : Memref sig .tc .vmem S16x512 .f32) (harg5 : arg5.IsWhole) (arg6 : Memref sig .tc .vmem S16x512 .f32) (harg6 : arg6.IsWhole) (arg7 : Memref sig .tc .vmem S16x512 .f32) (harg7 : arg7.IsWhole) (hc0 : ¬cond0_0 i) (hc1 : cond0_1 i)
    (x0 : Vec F S16x512x3 .bf16) (x1 : Vec F S16x512x3 .bf16) (x2 : Vec F S16x512 .f32) (x3 : Vec F S16x512 .f32) (xs0 : Vec F S16x512 .f32) :
    out0_C_4 c i arg2 harg2 arg3 harg3 arg4 harg4 arg5 harg5 arg6 harg6 arg7 harg7 hc0 hc1 x0 x1 x2 x3 xs0 = k0_pay2 x0 x1 x2 x3 xs0 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz2]
  simp only [View.readCov_unit_zero (S := S16x512) _ hz2, View.readAt_eq_ld, harg2.read_unread, harg3.read_unread, harg4.read_unread, harg5.read_unread, harg7.read_unread, View.ld_unit_zero (S := S16x512) hz2, View.ld_unit_zero (S := S16x512x3) hz3]

end Cert.KernelIdeal.Pieces

end
-- ==== Proof.Blocks.lean ====
import proofs.«125619_j60344290509660_1_alg».proof.Proof.Gen.KernelIdeal.Frame
import Idealize.ShloMosaic.Lib.Pipeline.Value
import Idealize.ShloMosaic.Lib.Tactic
import Idealize.ShloMosaic.Lib.ValueIdx
import Idealize.ShloMosaic.Lib.StableHlo.Run
set_option maxRecDepth 16384

noncomputable section

open Idealize.ShloMosaic Idealize.ShloMosaic.TcCoe Idealize.SL.Sem Idealize.ShloMosaic.Tactic
open Idealize.ShloMosaic.Pipeline (Dat)

/-! Where the kernel's blocks sit in the arrays the region finds, and what those arrays are.

The grid is 8 × 8, point `t = 8 i + j`. Row tile `i` (512 points of `X`) is what the windows of `X` and of
`X`'s numbers read, and where the output is written; column tile `j` (512 points of `Y`) is what the windows
of `Y` and of `Y`'s numbers read. A block's entry `r` on the tiled axis is the array's entry `512 · tile + r`.
The four arrays are written by host operations before the region: the two point clouds through a change of
float format, and each cloud's sum of squares along the coordinate axis. -/

namespace Cert.KernelIdeal.Blocks

open Cert.KernelIdeal Cert.KernelIdeal.Gen Idealize.ShloMosaic.ValueIdx

variable {F : FTy → Type} [FloatOps F]
variable (m : (ℓ : Loc nD τ sig) → Buf (Elt F) ℓ)

/-- The four input blocks at point `t`, at their literal shapes. -/
abbrev xq (c : Dev nD) (t : Fin cfg0.N) : FVec F S16x512x3 .bf16 := iblk m c 0 t
abbrev xk (c : Dev nD) (t : Fin cfg0.N) : FVec F S16x512x3 .bf16 := iblk m c 1 t
abbrev nq (c : Dev nD) (t : Fin cfg0.N) : FVec F S16x512 .f32 := iblk m c 2 t
abbrev nk (c : Dev nD) (t : Fin cfg0.N) : FVec F S16x512 .f32 := iblk m c 3 t

/-- The four arrays the region finds, at their literal shapes. -/
abbrev Xa (c : Dev nD) : FVec F S16x4096x3 .bf16 := V m c main_v0
abbrev Ya (c : Dev nD) : FVec F S16x4096x3 .bf16 := V m c main_v1
abbrev X2 (c : Dev nD) : FVec F S16x4096 .f32 := V m c main_v3
abbrev Y2 (c : Dev nD) : FVec F S16x4096 .f32 := V m c main_v5

/-- The printed index maps, decided over the grid. -/
theorem idx_facts : ∀ t : Fin cfg0.N,
    win0_0.index t (0 : Fin 3) = 0 ∧ win0_0.index t (1 : Fin 3) = t.val / 8 ∧ win0_0.index t (2 : Fin 3) = 0
    ∧ win0_1.index t (0 : Fin 3) = 0 ∧ win0_1.index t (1 : Fin 3) = t.val % 8 ∧ win0_1.index t (2 : Fin 3) = 0
    ∧ win0_2.index t (0 : Fin 2) = 0 ∧ win0_2.index t (1 : Fin 2) = t.val / 8
    ∧ win0_3.index t (0 : Fin 2) = 0 ∧ win0_3.index t (1 : Fin 2) = t.val % 8
    ∧ win0_4.index t (0 : Fin 2) = 0 ∧ win0_4.index t (1 : Fin 2) = t.val / 8 :=
  (by decide +kernel : ∀ t : Fin grid0.N, _)

theorem N64 : cfg0.N = 64 := N_0

/-- Entry `r` of tile `k` as an entry of the whole axis. -/
abbrev at512 (k : ℕ) (hk : k < 8) (r : Fin 512) : Fin 4096 := ⟨512 * k + r.val, by have := r.isLt; omega⟩

theorem div8_lt (t : Fin cfg0.N) : t.val / 8 < 8 := by have : t.val < 64 := lt_of_lt_of_eq t.isLt N64; omega
theorem mod8_lt (t : Fin cfg0.N) : t.val % 8 < 8 := Nat.mod_lt _ (by decide)

theorem xq_apply (c : Dev nD) (t : Fin cfg0.N) (b : Fin 16) (r : Fin 512) (d : Fin 3) :
    xq m c t (ix3 b r d) = Xa m c (ix3 b (at512 (t.val / 8) (div8_lt t) r) d) := by
  obtain ⟨e0, e1, e2, -⟩ := idx_facts t
  unfold xq iblk
  rw [View.read_apply]
  show V m c main_v0 _ = V m c main_v0 _
  congr 1
  funext a
  apply Fin.ext
  match a with
  | ⟨0, _⟩ => show win0_0.index t (0 : Fin 3) * 16 + 1 * b.val = b.val; omega
  | ⟨1, _⟩ => show win0_0.index t (1 : Fin 3) * 512 + 1 * r.val = 512 * (t.val / 8) + r.val; omega
  | ⟨2, _⟩ => show win0_0.index t (2 : Fin 3) * 3 + 1 * d.val = d.val; omega

theorem xk_apply (c : Dev nD) (t : Fin cfg0.N) (b : Fin 16) (q : Fin 512) (d : Fin 3) :
    xk m c t (ix3 b q d) = Ya m c (ix3 b (at512 (t.val % 8) (mod8_lt t) q) d) := by
  obtain ⟨-, -, -, e0, e1, e2, -⟩ := idx_facts t
  unfold xk iblk
  rw [View.read_apply]
  show V m c main_v1 _ = V m c main_v1 _
  congr 1
  funext a
  apply Fin.ext
  match a with
  | ⟨0, _⟩ => show win0_1.index t (0 : Fin 3) * 16 + 1 * b.val = b.val; omega
  | ⟨1, _⟩ => show win0_1.index t (1 : Fin 3) * 512 + 1 * q.val = 512 * (t.val % 8) + q.val; omega
  | ⟨2, _⟩ => show win0_1.index t (2 : Fin 3) * 3 + 1 * d.val = d.val; omega

theorem nq_apply (c : Dev nD) (t : Fin cfg0.N) (b : Fin 16) (r : Fin 512) :
    nq m c t (ix2 b r) = X2 m c (ix2 b (at512 (t.val / 8) (div8_lt t) r)) := by
  obtain ⟨-, -, -, -, -, -, e0, e1, -⟩ := idx_facts t
  unfold nq iblk
  rw [View.read_apply]
  show V m c main_v3 _ = V m c main_v3 _
  congr 1
  funext a
  apply Fin.ext
  match a with
  | ⟨0, _⟩ => show win0_2.index t (0 : Fin 2) * 16 + 1 * b.val = b.val; omega
  | ⟨1, _⟩ => show win0_2.index t (1 : Fin 2) * 512 + 1 * r.val = 512 * (t.val / 8) + r.val; omega

theorem nk_apply (c : Dev nD) (t : Fin cfg0.N) (b : Fin 16) (q : Fin 512) :
    nk m c t (ix2 b q) = Y2 m c (ix2 b (at512 (t.val % 8) (mod8_lt t) q)) := by
  obtain ⟨-, -, -, -, -, -, -, -, e0, e1, -⟩ := idx_facts t
  unfold nk iblk
  rw [View.read_apply]
  show V m c main_v5 _ = V m c main_v5 _
  congr 1
  funext a
  apply Fin.ext
  match a with
  | ⟨0, _⟩ => show win0_3.index t (0 : Fin 2) * 16 + 1 * b.val = b.val; omega
  | ⟨1, _⟩ => show win0_3.index t (1 : Fin 2) * 512 + 1 * q.val = 512 * (t.val % 8) + q.val; omega

/-! ## The arrays the region finds -/

/-- A cloud's sum of squares along the coordinate axis, as the host computes it. -/
abbrev sumSq (A : FVec F S16x4096x3 .f32) : FVec F S16x4096 .f32 :=
  Host.reduceAdd (mulf A A) (constant (F := F) S_ .f32 0x00000000#32) reducesTo_S16x4096x3_S16x4096_d2 h_S_

theorem Xa_eq (c : Dev nD) :
    Xa m c = truncf .bf16 (m ((c : Thread nD τ).loc main_arg0) : FVec F S16x4096x3 .f32) bitsLt_bf16_f32 := by
  show StableHlo.after hostOps0 (fun b => m (c, b)) (Proc.devRef .tc main_v0) = _
  after_results

theorem Ya_eq (c : Dev nD) :
    Ya m c = truncf .bf16 (m ((c : Thread nD τ).loc main_arg1) : FVec F S16x4096x3 .f32) bitsLt_bf16_f32 := by
  show StableHlo.after hostOps0 (fun b => m (c, b)) (Proc.devRef .tc main_v1) = _
  after_results

theorem X2_eq (c : Dev nD) : X2 m c = sumSq (m ((c : Thread nD τ).loc main_arg0)) := by
  show StableHlo.after hostOps0 (fun b => m (c, b)) (Proc.devRef .tc main_v3) = _
  after_results

theorem Y2_eq (c : Dev nD) : Y2 m c = sumSq (m ((c : Thread nD τ).loc main_arg1)) := by
  show StableHlo.after hostOps0 (fun b => m (c, b)) (Proc.devRef .tc main_v5) = _
  after_results

end Cert.KernelIdeal.Blocks

end
-- ==== Proof.Payload.lean ====
/-
  The block the kernel body stores into its running-minimum buffer, read at one row.

  The body holds a block of 512 points of `X` (`xq`, with their numbers `nq`), a block of 512 points of `Y`
  (`xk`, `nk`) and the buffer's current contents `acc`. It forms all 512 × 512 squared distances
  `(nq + nk) - two · (xq · xk)` per batch — the inner products as one batched matrix product into a zero
  accumulator —, takes each row's minimum over the 512 columns from the start word, and joins it to `acc`.
-/
import proofs.«125619_j60344290509660_1_alg».proof.Proof.Gen.KernelIdeal.Skeleton
import proofs.«125619_j60344290509660_1_alg».proof.Proof.Spec
import Idealize.ShloMosaic.Lib.Pipeline.Value
import Idealize.ShloMosaic.Lib.ValueIdx
import Idealize.ShloMosaic.PureOps.Ideal.Laws

noncomputable section

namespace Cert.KernelIdeal.PayValue

open Cert.KernelIdeal Cert.KernelIdeal.Gen Idealize.ShloMosaic Idealize.ShloMosaic.ValueIdx

/-! ## The batched matrix product at an index

The product's dimension numbers batch axis 0 of both operands, keep axis 1 of each and contract axis 2 of each.
So at result index `(b, r, q)` and contraction position `k` the left operand is read at `(b, r, k)` and the
right one at `(b, q, k)`: the six coordinate facts below, one per operand axis. -/

theorem lhs_dot_0 (i : S16x512x512.Idx) (q : dot_S16x512x3_S16x512x3_S16x512x512_2_2_1_1_0_0.contr.Idx) :
    (dot_S16x512x3_S16x512x3_S16x512x512_2_2_1_1_0_0.lhsIdx i q 0).val = (i 0).val := by
  unfold DotDims.lhsIdx
  rw [dif_pos (show (0 : Fin S16x512x3.rank) ∈ dot_S16x512x3_S16x512x3_S16x512x512_2_2_1_1_0_0.lhsBatch by decide)]
  rfl
theorem lhs_dot_1 (i : S16x512x512.Idx) (q : dot_S16x512x3_S16x512x3_S16x512x512_2_2_1_1_0_0.contr.Idx) :
    (dot_S16x512x3_S16x512x3_S16x512x512_2_2_1_1_0_0.lhsIdx i q 1).val = (i 1).val := by
  unfold DotDims.lhsIdx
  rw [dif_neg (show ¬(1 : Fin S16x512x3.rank) ∈ dot_S16x512x3_S16x512x3_S16x512x512_2_2_1_1_0_0.lhsBatch by decide), dif_pos (show (1 : Fin S16x512x3.rank) ∈ dot_S16x512x3_S16x512x3_S16x512x512_2_2_1_1_0_0.lhsNonContracting by decide)]
  rfl
theorem lhs_dot_2 (i : S16x512x512.Idx) (q : dot_S16x512x3_S16x512x3_S16x512x512_2_2_1_1_0_0.contr.Idx) :
    (dot_S16x512x3_S16x512x3_S16x512x512_2_2_1_1_0_0.lhsIdx i q 2).val = (q ⟨0, by decide⟩).val :=
  dot_S16x512x3_S16x512x3_S16x512x512_2_2_1_1_0_0.lhsIdx_val_of_single rfl i q
theorem rhs_dot_0 (i : S16x512x512.Idx) (q : dot_S16x512x3_S16x512x3_S16x512x512_2_2_1_1_0_0.contr.Idx) :
    (dot_S16x512x3_S16x512x3_S16x512x512_2_2_1_1_0_0.rhsIdx i q 0).val = (i 0).val := by
  unfold DotDims.rhsIdx
  rw [dif_pos (show (0 : Fin S16x512x3.rank) ∈ dot_S16x512x3_S16x512x3_S16x512x512_2_2_1_1_0_0.rhsBatch by decide)]
  rfl
theorem rhs_dot_1 (i : S16x512x512.Idx) (q : dot_S16x512x3_S16x512x3_S16x512x512_2_2_1_1_0_0.contr.Idx) :
    (dot_S16x512x3_S16x512x3_S16x512x512_2_2_1_1_0_0.rhsIdx i q 1).val = (i 2).val := by
  unfold DotDims.rhsIdx
  rw [dif_neg (show ¬(1 : Fin S16x512x3.rank) ∈ dot_S16x512x3_S16x512x3_S16x512x512_2_2_1_1_0_0.rhsBatch by decide), dif_pos (show (1 : Fin S16x512x3.rank) ∈ dot_S16x512x3_S16x512x3_S16x512x512_2_2_1_1_0_0.rhsNonContracting by decide)]
  rfl
theorem rhs_dot_2 (i : S16x512x512.Idx) (q : dot_S16x512x3_S16x512x3_S16x512x512_2_2_1_1_0_0.contr.Idx) :
    (dot_S16x512x3_S16x512x3_S16x512x512_2_2_1_1_0_0.rhsIdx i q 2).val = (q ⟨0, by decide⟩).val :=
  dot_S16x512x3_S16x512x3_S16x512x512_2_2_1_1_0_0.rhsIdx_val_of_single rfl i q

/-- The product into the zero splat, read at `(b, r, q)`: the inner product of row `r` of the left block with
    row `q` of the right block of batch `b`, over the three coordinates. -/
theorem dot_apply (x y : FVec Ideal S16x512x3 .bf16) (b : Fin 16) (r q : Fin 512) :
    matmul (F := Ideal) dot_S16x512x3_S16x512x3_S16x512x512_2_2_1_1_0_0 none x y (constant (F := Ideal) S16x512x512 .f32 0x00000000#32) (ix3 b r q)
      = ∑ d : Fin 3, x (ix3 b r d) * y (ix3 b q d) := by
  simp only [matmul]
  rw [Ideal.matmul_constant_zero_apply, ← Equiv.sum_comp (contrEquiv1 dot_S16x512x3_S16x512x3_S16x512x512_2_2_1_1_0_0 3 rfl rfl).symm]
  refine Finset.sum_congr rfl fun k _ => ?_
  have hk := contrEquiv1_symm_val dot_S16x512x3_S16x512x3_S16x512x512_2_2_1_1_0_0 3 rfl rfl k
  have el : dot_S16x512x3_S16x512x3_S16x512x512_2_2_1_1_0_0.lhsIdx (ix3 b r q) ((contrEquiv1 dot_S16x512x3_S16x512x3_S16x512x512_2_2_1_1_0_0 3 rfl rfl).symm k) = ix3 b r k := funext fun a => Fin.ext (by
    match a with
    | ⟨0, _⟩ => exact lhs_dot_0 _ _
    | ⟨1, _⟩ => exact lhs_dot_1 _ _
    | ⟨2, _⟩ => exact (lhs_dot_2 _ _).trans hk)
  have er : dot_S16x512x3_S16x512x3_S16x512x512_2_2_1_1_0_0.rhsIdx (ix3 b r q) ((contrEquiv1 dot_S16x512x3_S16x512x3_S16x512x512_2_2_1_1_0_0 3 rfl rfl).symm k) = ix3 b q k := funext fun a => Fin.ext (by
    match a with
    | ⟨0, _⟩ => exact rhs_dot_0 _ _
    | ⟨1, _⟩ => exact rhs_dot_1 _ _
    | ⟨2, _⟩ => exact (rhs_dot_2 _ _).trans hk)
  rw [el, er]

/-! ## The two norm arrays, spread over the block -/

/-- A `16 × 512` array viewed as `16 × 512 × 1` and repeated along the last axis reads, at `(b, r, q)`, its entry
    `(b, r)`. -/
theorem spreadRows_apply (v : FVec Ideal S16x512 .f32) (b : Fin 16) (r q : Fin 512) :
    broadcastTo S16x512x512 (shapeCast S16x512x1 v shapeCasts_S16x512_S16x512x1) broadcasts_S16x512x1_S16x512x512 (ix3 b r q)
      = v (ix2 b r) := by
  refine (broadcastTo_apply _ _ (ix3 b r q) (ix3 b r (0 : Fin 1)) fun a => ?_).trans ?_
  · match a with
    | ⟨0, _⟩ => rfl
    | ⟨1, _⟩ => rfl
    | ⟨2, _⟩ => rfl
  · refine shapeCast_apply _ _ (ix3 b r (0 : Fin 1)) (ix2 b r) ?_
    rw [Shape.rowMajor_val_two, Shape.rowMajor_val_three]
    show b.val * 512 + r.val = (b.val * 512 + r.val) * 1 + 0
    omega

/-- A `16 × 512` array viewed as `16 × 1 × 512` and repeated along the middle axis reads, at `(b, r, q)`, its
    entry `(b, q)`. -/
theorem spreadCols_apply (v : FVec Ideal S16x512 .f32) (b : Fin 16) (r q : Fin 512) :
    broadcastTo S16x512x512 (shapeCast S16x1x512 v shapeCasts_S16x512_S16x1x512) broadcasts_S16x1x512_S16x512x512 (ix3 b r q)
      = v (ix2 b q) := by
  refine (broadcastTo_apply _ _ (ix3 b r q) (ix3 b (0 : Fin 1) q) fun a => ?_).trans ?_
  · match a with
    | ⟨0, _⟩ => rfl
    | ⟨1, _⟩ => rfl
    | ⟨2, _⟩ => rfl
  · refine shapeCast_apply _ _ (ix3 b (0 : Fin 1) q) (ix2 b q) ?_
    rw [Shape.rowMajor_val_two, Shape.rowMajor_val_three]
    show b.val * 512 + q.val = (b.val * 1 + 0) * 512 + q.val
    omega

/-! ## The row minimum at an index -/

/-- The minimum over the last axis of a `16 × 512 × 512` block, started at the word `0x7F800000`, read at row
    `(b, r)`: the fold of `min` from that word's value over the row's 512 entries. -/
theorem rowFold_apply (src : FVec Ideal S16x512x512 .f32) (hφ : FKind.Formats .f32)
    (hacc : (0x7F800000#32 : BitVec 32) = 0x7F800000#32) (b : Fin 16) (r : Fin 512) :
    multiReduction (F := Ideal) .minimumf [2] S16x512 src 0x7F800000#32 reduces_S16x512x512_S16x512 hφ hacc (ix2 b r)
      = (Finset.univ : Finset (Fin 512)).fold min (Ideal.ofBits .f32 0x7F800000#32) fun q => src (ix3 b r q) := by
  refine (multiReduction_minimumf_eq_fold (F := Ideal) src 0x7F800000#32 reduces_S16x512x512_S16x512 hφ hacc (ix2 b r)).trans ?_
  refine (reduces_S16x512x512_S16x512.fold_filter_drop_single FloatOps.minimumf (Ideal.ofBits .f32 0x7F800000#32) src (ix2 b r)).trans ?_
  refine Finset.fold_congr fun (q : Fin 512) _ => ?_
  exact congrArg src (funext fun a => Fin.ext (by
    match a with
    | ⟨0, _⟩ => rfl
    | ⟨1, _⟩ => rfl
    | ⟨2, _⟩ => rfl))

/-- The block the reset stores holds the start word everywhere. -/
theorem pay1_apply (i : S16x512.Idx) : (k0_pay1 (F := Ideal)) i = Ideal.ofBits .f32 0x7F800000#32 := by
  unfold k0_pay1
  rw [shapeCast_self]
  rfl

/-- Row `(b, r)` of the stored block: the buffer's entry joined with the row's least squared distance over the
    block's 512 columns. -/
theorem pay2_apply (xq xk : FVec Ideal S16x512x3 .bf16) (nq nk acc : FVec Ideal S16x512 .f32) (b : Fin 16) (r : Fin 512) :
    k0_pay2 (F := Ideal) xq xk nq nk acc (ix2 b r)
      = min (acc (ix2 b r)) ((Finset.univ : Finset (Fin 512)).fold min (Ideal.ofBits .f32 0x7F800000#32) fun q =>
          (nq (ix2 b r) + nk (ix2 b q)) - Ideal.ofBits .f32 0x40000000#32 * ∑ d : Fin 3, xq (ix3 b r d) * xk (ix3 b q d)) := by
  unfold k0_pay2
  -- the casts of a block to its own shape are the identity; the join is `min` of the two entries
  simp only [shapeCast_self]
  rw [minimumf_apply]
  refine congrArg (min (acc (ix2 b r))) ?_
  -- the row minimum is the fold over the row's 512 columns …
  refine (rowFold_apply _ _ _ b r).trans ?_
  refine Finset.fold_congr fun (q : Fin 512) _ => ?_
  -- … of the entry at `(b, r, q)`: `(nq + nk) - two · (xq · xk)`, each factor read at its own index
  rw [subf_apply, addf_apply, mulf_apply, broadcast_apply, dot_apply, spreadRows_apply, spreadCols_apply]
  rfl

end Cert.KernelIdeal.PayValue

end
-- ==== Proof.RunningMin.lean ====
import proofs.«125619_j60344290509660_1_alg».proof.Proof.Pieces
import proofs.«125619_j60344290509660_1_alg».proof.Proof.Blocks
import proofs.«125619_j60344290509660_1_alg».proof.Proof.Payload
import proofs.«125619_j60344290509660_1_alg».proof.Proof.Spec

set_option maxRecDepth 16384

/-! The buffer the kernel carries across grid points holds the running minimum.

At point `t = 8 i + j`, row `r` of batch `b` of the buffer is `runMin` after tile `j` of the squared distances
from point `512 i + r` of `X` to all points of `Y`. By induction on the point: a point whose column tile is the
first restarts from the start block; any other joins its tile's minimum to what the point before left, and the
point before lies in the same row tile. -/

noncomputable section

open Idealize.ShloMosaic Idealize.ShloMosaic.TcCoe Idealize.SL.Sem

namespace Cert.Chamfer

/-- The running minimum at the first tile. -/
theorem runMin_of_zero (top : EReal) (g : Fin 4096 → EReal) (j : ℕ) (hj : j < 8) (h : j = 0) :
    runMin top g j hj = min top (tileMin top g j hj) := by
  subst h; rfl

/-- The running minimum at a later tile, over the one before. -/
theorem runMin_of_pos (top : EReal) (g : Fin 4096 → EReal) (j : ℕ) (hj : j < 8) (h : j ≠ 0) :
    runMin top g j hj = min (runMin top g (j - 1) (by omega)) (tileMin top g j hj) := by
  cases j with
  | zero => exact absurd rfl h
  | succ k => rfl

/-- The running minimum depends on the column function and the tile only. -/
theorem runMin_congr (top : EReal) {g g' : Fin 4096 → EReal} {j j' : ℕ} (hj : j < 8) (hj' : j' < 8) (hg : g = g')
    (hjj : j = j') : runMin top g j hj = runMin top g' j' hj' := by
  subst hg; subst hjj; rfl

end Cert.Chamfer

namespace Cert.KernelIdeal.RunningMin

open Cert.KernelIdeal Cert.KernelIdeal.Gen Cert.KernelIdeal.Blocks Cert.KernelIdeal.Pieces Cert.KernelIdeal.PayValue
open Cert.Chamfer Idealize.ShloMosaic.ValueIdx

variable (m : (ℓ : Loc nD τ sig) → Buf (Elt Ideal) ℓ)

/-- The start word of every minimum, and the word for the factor two: never evaluated. -/
abbrev top : EReal := Ideal.ofBits .f32 0x7F800000#32
abbrev two : EReal := Ideal.ofBits .f32 0x40000000#32

/-- The squared distances from point `n` of `X` in batch `b` to the points of `Y`, over the arrays the region finds. -/
abbrev drow (c : Dev nD) (b : Fin 16) (n : Fin 4096) : Fin 4096 → EReal :=
  fun k => dist two (Xa m c) (Ya m c) (X2 m c) (Y2 m c) b n k

/-- The body's row minimum over its 512 columns at point `t` is the tile minimum of the row's distances. -/
theorem tile_eq (c : Dev nD) (t : Fin cfg0.N) (b : Fin 16) (r : Fin 512) :
    (Finset.univ : Finset (Fin 512)).fold min top (fun q =>
        (nq m c t (ix2 b r) + nk m c t (ix2 b q)) - two * ∑ d : Fin 3, xq m c t (ix3 b r d) * xk m c t (ix3 b q d))
      = tileMin top (drow m c b (at512 (t.val / 8) (div8_lt t) r)) (t.val % 8) (mod8_lt t) := by
  unfold tileMin
  refine Finset.fold_congr fun q _ => ?_
  rw [nq_apply, nk_apply]
  simp only [xq_apply, xk_apply]
  rfl

/-- The block the body stores over a buffer holding `acc`, at row `(b, r)`: the entry joined with the tile minimum. -/
theorem update_apply (c : Dev nD) (t : Fin cfg0.N) (acc : FVec Ideal S16x512 .f32) (b : Fin 16) (r : Fin 512) :
    k0_pay2 (F := Ideal) (iblk m c 0 t) (iblk m c 1 t) (iblk m c 2 t) (iblk m c 3 t) acc (ix2 b r)
      = min (acc (ix2 b r)) (tileMin top (drow m c b (at512 (t.val / 8) (div8_lt t) r)) (t.val % 8) (mod8_lt t)) :=
  (pay2_apply (xq m c t) (xk m c t) (nq m c t) (nk m c t) acc b r).trans (congrArg (min _) (tile_eq m c t b r))

/-! ## What the buffer and the output block hold after a point, by its case -/

theorem scr_first (c : Dev nD) (t : Fin cfg0.N) (h0 : t.val % 8 = 0) (h1 : ¬t.val % 8 = 7) :
    (outsAt0 m c t.val t.isLt).2 = k0_pay2 (F := Ideal) (iblk m c 0 t) (iblk m c 1 t) (iblk m c 2 t) (iblk m c 3 t) (k0_pay1 (F := Ideal)) := by
  rw [outsAt0_A m c t h0 h1]
  dsimp only
  exact sout_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

theorem scr_mid (c : Dev nD) (t : Fin cfg0.N) (h0 : ¬t.val % 8 = 0) (h1 : ¬t.val % 8 = 7) :
    (outsAt0 m c t.val t.isLt).2 = k0_pay2 (F := Ideal) (iblk m c 0 t) (iblk m c 1 t) (iblk m c 2 t) (iblk m c 3 t) (outsAt0 m c (t.val - 1) (Nat.lt_of_le_of_lt (Nat.sub_le _ _) t.isLt)).2 := by
  rw [outsAt0_B m c t h0 h1]
  dsimp only
  exact sout_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2

theorem scr_last (c : Dev nD) (t : Fin cfg0.N) (h0 : ¬t.val % 8 = 0) (h1 : t.val % 8 = 7) :
    (outsAt0 m c t.val t.isLt).2 = k0_pay2 (F := Ideal) (iblk m c 0 t) (iblk m c 1 t) (iblk m c 2 t) (iblk m c 3 t) (outsAt0 m c (t.val - 1) (Nat.lt_of_le_of_lt (Nat.sub_le _ _) t.isLt)).2 := by
  rw [outsAt0_C m c t h0 h1]
  dsimp only
  exact sout_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2

theorem out_last (c : Dev nD) (t : Fin cfg0.N) (h0 : ¬t.val % 8 = 0) (h1 : t.val % 8 = 7) :
    (outsAt0 m c t.val t.isLt).1 = k0_pay2 (F := Ideal) (iblk m c 0 t) (iblk m c 1 t) (iblk m c 2 t) (iblk m c 3 t) (outsAt0 m c (t.val - 1) (Nat.lt_of_le_of_lt (Nat.sub_le _ _) t.isLt)).2 := by
  rw [outsAt0_C m c t h0 h1]
  dsimp only
  exact out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2

/-! ## The induction over the grid points -/

/-- A point whose column tile is the first: the buffer restarts, `top` joined with tile 0's minimum. -/
theorem step_first (c : Dev nD) (t : Fin cfg0.N) (h0 : t.val % 8 = 0) (b : Fin 16) (r : Fin 512) :
    (outsAt0 m c t.val t.isLt).2 (ix2 b r) = runMin top (drow m c b (at512 (t.val / 8) (div8_lt t) r)) (t.val % 8) (mod8_lt t) := by
  have h1 : ¬t.val % 8 = 7 := by omega
  refine (congrFun (scr_first m c t h0 h1) (ix2 b r)).trans ?_
  refine (update_apply m c t _ b r).trans ?_
  rw [pay1_apply, runMin_of_zero _ _ _ _ h0]

/-- Any other point: the tile's minimum joined to what the point before left, which is the running minimum of
    the same row after the tile before. -/
theorem step_next (c : Dev nD) (t : Fin cfg0.N) (h0 : ¬t.val % 8 = 0)
    (ih : ∀ (b : Fin 16) (r : Fin 512), (outsAt0 m c (t.val - 1) (Nat.lt_of_le_of_lt (Nat.sub_le _ _) t.isLt)).2 (ix2 b r)
      = runMin top (drow m c b (at512 (t.val / 8) (div8_lt t) r)) (t.val % 8 - 1) (by have := mod8_lt t; omega))
    (b : Fin 16) (r : Fin 512) :
    (outsAt0 m c t.val t.isLt).2 (ix2 b r) = runMin top (drow m c b (at512 (t.val / 8) (div8_lt t) r)) (t.val % 8) (mod8_lt t) := by
  have hs : (outsAt0 m c t.val t.isLt).2 = k0_pay2 (F := Ideal) (iblk m c 0 t) (iblk m c 1 t) (iblk m c 2 t) (iblk m c 3 t) (outsAt0 m c (t.val - 1) (Nat.lt_of_le_of_lt (Nat.sub_le _ _) t.isLt)).2 := by
    by_cases h1 : t.val % 8 = 7
    · exact scr_last m c t h0 h1
    · exact scr_mid m c t h0 h1
  refine (congrFun hs (ix2 b r)).trans ?_
  refine (update_apply m c t _ b r).trans ?_
  rw [ih b r, runMin_of_pos _ _ _ _ h0]

/-- After point `n = 8 i + j` the buffer's row `(b, r)` is the running minimum after tile `j` of the distances
    from point `512 i + r` of `X`. -/
theorem scratch_eq (c : Dev nD) : ∀ (n : ℕ) (hn : n < cfg0.N) (b : Fin 16) (r : Fin 512),
    (outsAt0 m c n hn).2 (ix2 b r)
      = runMin top (drow m c b (at512 (n / 8) (div8_lt ⟨n, hn⟩) r)) (n % 8) (mod8_lt ⟨n, hn⟩) := by
  intro n
  induction n with
  | zero => intro hn b r; exact step_first m c ⟨0, hn⟩ rfl b r
  | succ k ih =>
    intro hn b r
    by_cases h0 : (k + 1) % 8 = 0
    · exact step_first m c ⟨k + 1, hn⟩ h0 b r
    · refine step_next m c ⟨k + 1, hn⟩ h0 (fun b' r' => ?_) b r
      refine (ih (Nat.lt_of_succ_lt hn) b' r').trans ?_
      have hN : k + 1 < 64 := lt_of_lt_of_eq hn N64
      have e8 : k / 8 = (k + 1) / 8 := by omega
      have ea : at512 (k / 8) (div8_lt ⟨k, Nat.lt_of_succ_lt hn⟩) r' = at512 ((k + 1) / 8) (div8_lt ⟨k + 1, hn⟩) r' :=
        Fin.ext (by show 512 * (k / 8) + r'.val = 512 * ((k + 1) / 8) + r'.val; rw [e8])
      exact runMin_congr top _ _ (by rw [ea]) (by show k % 8 = (k + 1) % 8 - 1; omega)

end Cert.KernelIdeal.RunningMin

end
-- ==== Proof.KernelValue.lean ====
import proofs.«125619_j60344290509660_1_alg».proof.Proof.RunningMin
import Idealize.ShloMosaic.Lib.StableHlo.Run

set_option maxRecDepth 16384

/-! The kernel program's result.

The output block of row tile `i` is written back once, after the point of the last column tile, and holds the
buffer's contents there: the running minimum after all eight tiles, which is the minimum over all 4096 points
of `Y`. The eight row tiles cover the array, so the array the region leaves is `rowMin` of the arrays it found;
the host operations after the region are `meanSum` of it. -/

noncomputable section

open Idealize.ShloMosaic Idealize.ShloMosaic.TcCoe Idealize.SL.Sem
open Idealize.ShloMosaic.Pipeline (Dat)

namespace Cert.KernelIdeal.Result

open Cert.KernelIdeal Cert.KernelIdeal.Gen Cert.KernelIdeal.Blocks Cert.KernelIdeal.RunningMin
open Cert.Chamfer Idealize.ShloMosaic.ValueIdx

variable (m : (ℓ : Loc nD τ sig) → Buf (Elt Ideal) ℓ) (ρ : Dev nD → PrngReg)

/-- The row minima over the arrays the region finds. -/
abbrev rowMinArr (c : Dev nD) : FVec Ideal S16x4096 .f32 := rowMin top two (Xa m c) (Ya m c) (X2 m c) (Y2 m c)

/-- WHAT A WRITING POINT WRITES BACK: the block of `rowMinArr` at its row tile. -/
theorem flushed_eq (c : Dev nD) (t : Fin cfg0.N) (hf : (cfg0.win 4).flush t = true) :
    (dats m 0 c).flushed 4 t = ((cfg0.win 4).blk t).view.read (Elt Ideal) (rowMinArr m c) := by
  have h7 : t.val % 8 = 7 := (flush0_4 t).mp hf
  have h0 : ¬t.val % 8 = 0 := by omega
  obtain ⟨-, -, -, -, -, -, -, -, -, -, e0, e1⟩ := idx_facts t
  show (cfg0.win 4).cut (grid0.coords t) ((dats m 0 c).after 4 t) = _
  rw [after0_4, (out_last m c t h0 h7).trans (scr_last m c t h0 h7).symm]
  funext j
  obtain ⟨b, r, rfl⟩ : ∃ (b : Fin 16) (r : Fin 512), j = ix2 b r := ⟨j 0, j 1, eq_ix2 j⟩
  show (outsAt0 m c t.val t.isLt).2 (ix2 b r) = rowMinArr m c (((cfg0.win 4).blk t).view.emb (ix2 b r))
  have he : ((cfg0.win 4).blk t).view.emb (ix2 b r) = ix2 b (at512 (t.val / 8) (div8_lt t) r) := by
    funext a
    apply Fin.ext
    match a with
    | ⟨0, _⟩ => show win0_4.index t (0 : Fin 2) * 16 + 1 * b.val = b.val; omega
    | ⟨1, _⟩ => show win0_4.index t (1 : Fin 2) * 512 + 1 * r.val = 512 * (t.val / 8) + r.val; omega
  rw [he, scratch_eq m c t.val t.isLt b r]
  refine (runMin_congr top (mod8_lt t) (by omega) rfl h7).trans ?_
  exact runMin_last top _

/-- An index of the array is in point `t`'s output block iff each coordinate is in the block's range. -/
theorem mem_blk (t : Fin cfg0.N) (i : S16x4096.Idx) :
    i ∈ ((cfg0.win 4).blk t).view.set ↔ ∀ a : Fin 2, win0_4.index t a * S16x512.size a ≤ (i a).val ∧ (i a).val < win0_4.index t a * S16x512.size a + S16x512.size a := by
  show i ∈ ((View.whole main_v6).slice (win0_4.rect t)).set ↔ _
  rw [View.set_slice_whole, Rect.mem_set_unit]
  exact Iff.rfl

/-- So the array ends at the row minima: entry `(b, n)` lies in the block the last point of row tile `n / 512` writes. -/
theorem final (c : Dev nD) : (dats m 0 c).arrAt 4 cfg0.N = rowMinArr m c :=
  (dats m 0 c).arrAt_eq_of_cover 4 (rowMinArr m c) (flushed_eq m c) fun i => by
    have hi0 : (i 0 : Nat) < 16 := (i 0).isLt
    have hi1 : (i 1 : Nat) < 4096 := (i 1).isLt
    have ht : 8 * ((i 1 : Nat) / 512) + 7 < cfg0.N := by rw [N64]; omega
    refine ⟨⟨8 * ((i 1 : Nat) / 512) + 7, ht⟩, (flush0_4 _).mpr (by show (8 * ((i 1 : Nat) / 512) + 7) % 8 = 7; omega), ?_⟩
    obtain ⟨-, -, -, -, -, -, -, -, -, -, e0, e1⟩ := idx_facts ⟨8 * ((i 1 : Nat) / 512) + 7, ht⟩
    have e1' : win0_4.index ⟨8 * ((i 1 : Nat) / 512) + 7, ht⟩ (1 : Fin 2) = (8 * ((i 1 : Nat) / 512) + 7) / 8 := e1
    rw [mem_blk]
    intro a
    match a with
    | ⟨0, _⟩ => show win0_4.index ⟨8 * ((i 1 : Nat) / 512) + 7, ht⟩ (0 : Fin 2) * 16 ≤ (i 0 : Nat) ∧ (i 0 : Nat) < win0_4.index ⟨8 * ((i 1 : Nat) / 512) + 7, ht⟩ (0 : Fin 2) * 16 + 16; omega
    | ⟨1, _⟩ => show win0_4.index ⟨8 * ((i 1 : Nat) / 512) + 7, ht⟩ (1 : Fin 2) * 512 ≤ (i 1 : Nat) ∧ (i 1 : Nat) < win0_4.index ⟨8 * ((i 1 : Nat) / 512) + 7, ht⟩ (1 : Fin 2) * 512 + 512; omega

/-- The program's result: the host operations after the region, applied to the array the region leaves. -/
abbrev result (c : Dev nD) : FVec Ideal S_ .f32 :=
  meanSum reducesTo_S16x4096_S16_d1 bcast_S_S16 reducesTo_S16_S_d0 h_S_ (rowMinArr m c)

theorem tail_eq (c : Dev nD) :
    Pipeline.afterTail₀ cfgs (dats m) 0 (V0 m) [hostOps1] c main_v10 = result m c := by
  unfold Pipeline.afterTail₀
  show StableHlo.after hostOps1 _ (Proc.devRef .tc main_v10) = _
  after_results
  have e : Pipeline.withArrays (cfgs 0).spec c (V0 m c) (fun w => (dats m 0 c).arrAt w (cfgs 0).N) (Proc.devRef .tc main_v6)
      = rowMinArr m c :=
    (Pipeline.withArrays_arr spec0 launch0.win.arr_inj c _ _ 4).trans (final m c)
  rw [e]
  rfl

/-- The run, read: the result at `meanSum` of the row minima, the two clouds unchanged. -/
theorem run : θ_run defs (onTc (τ := τ) (main (F := Ideal))) ⟨m, fun _ => 0, ρ⟩ fun r => ∀ c : Dev nD,
      r.2.mem ((c : Thread nD τ).loc main_v10) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v10 (Pipeline.mem_restRefs_of main_v10 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Result

end
-- ==== Proof.lean ====
/-
  The certificate of a tiled nearest-point ("chamfer") kernel against its one-sweep reference, over the extended reals.

  Both programs take two clouds `X`, `Y` of 4096 points of ℝ³ in each of 16 batches and return
      ∑_b (∑_n min_m dist b n m) / 4096,   dist b n m = (|x_n|² + |y_m|²) - 2 · (x_n · y_m).
  The reference forms all 4096 × 4096 distances per batch and reduces the `m` axis by `min` from a start word
  (the format's pattern for +∞; both programs spell the same word, and its value is never used here; likewise the
  words for the factor 2 and the divisor 4096 are the same on both sides and are never evaluated). The kernel
  walks an 8 × 8 grid of 512 × 512 tiles; a buffer that lives across grid points keeps, for the 512 rows of the
  current row tile, the minimum over the column tiles seen so far (reset to that start word at the first column tile, joined
  with each tile's row minimum, copied to the output after the last). The inner products go through a narrower
  float format on the kernel's side, which over the extended reals is the identity. So both sides are the same
  `dist`, and the one law between them is that a minimum over 4096 columns taken in eight tiles with a running
  minimum is the minimum of one sweep (`Cert.Chamfer.runMin_last`: only that `min` is a meet, nothing need be
  finite, and the precondition is never opened). What follows the minima — the sum over a batch's points, the
  division by 4096, the sum over batches — is the same host text in both programs and is carried as one
  function, never opened.

  The three frames are the generated ones (the reference's is its generated run with the result dropped); the
  ideal pass rewrote nothing, so `preserves` is `True`.
-/
import proofs.«125619_j60344290509660_1_alg».proof.Defs
import proofs.«125619_j60344290509660_1_alg».proof.Proof.Gen.Kernel
import proofs.«125619_j60344290509660_1_alg».proof.Proof.Gen.Kernel.Skeleton
import proofs.«125619_j60344290509660_1_alg».proof.Proof.Gen.Kernel.Launch
import proofs.«125619_j60344290509660_1_alg».proof.Proof.Gen.Kernel.Points
import proofs.«125619_j60344290509660_1_alg».proof.Proof.Gen.Kernel.Frame
import proofs.«125619_j60344290509660_1_alg».proof.Proof.Gen.KernelIdeal
import proofs.«125619_j60344290509660_1_alg».proof.Proof.Gen.KernelIdeal.Skeleton
import proofs.«125619_j60344290509660_1_alg».proof.Proof.Gen.KernelIdeal.Launch
import proofs.«125619_j60344290509660_1_alg».proof.Proof.Gen.KernelIdeal.Points
import proofs.«125619_j60344290509660_1_alg».proof.Proof.Gen.KernelIdeal.Frame
import proofs.«125619_j60344290509660_1_alg».proof.Proof.Gen.ReferenceIdeal
import proofs.«125619_j60344290509660_1_alg».proof.Proof.Gen.ReferenceIdeal.Run
import proofs.«125619_j60344290509660_1_alg».proof.Proof.Gen.ReferenceIdeal.Read
import proofs.«125619_j60344290509660_1_alg».proof.Proof.Spec
import proofs.«125619_j60344290509660_1_alg».proof.Proof.RefValue
import proofs.«125619_j60344290509660_1_alg».proof.Proof.KernelValue
import proofs.«125619_j60344290509660_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the two clouds both programs end at `meanSum` of `rowMin` of the clouds and their
    sums of squares: the kernel's by its running minimum over the tiles, the reference's by its one reduction. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v17_eq, Cert.ReferenceIdeal.RefValue.result_ref,
    Cert.ReferenceIdeal.RefValue.rowMin_ref]
  show _ = Cert.Chamfer.meanSum _ _ _ _ (Cert.Chamfer.rowMin _ _ (Cert.KernelIdeal.Blocks.Xa m c) (Cert.KernelIdeal.Blocks.Ya m c)
    (Cert.KernelIdeal.Blocks.X2 m c) (Cert.KernelIdeal.Blocks.Y2 m c))
  rw [Cert.KernelIdeal.Blocks.Xa_eq, Cert.KernelIdeal.Blocks.Ya_eq, Cert.KernelIdeal.Blocks.X2_eq, Cert.KernelIdeal.Blocks.Y2_eq]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
